-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x128 : Shape := ⟨2, ![128, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x4096x4096 .f32) (main_arg1 : FVec F S128x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S4x4096x4096 : Shape := ⟨3, ![4, 4096, 4096]⟩
abbrev S128x128 : Shape := ⟨2, ![128, 128]⟩
abbrev S524288x128 : Shape := ⟨2, ![524288, 128]⟩
abbrev S8192x128 : Shape := ⟨2, ![8192, 128]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S524288x128, .f32⟩
  | .hbm, ⟨3, _⟩ => ⟨S128x128, .bf16⟩
  | .hbm, ⟨4, _⟩ => ⟨S524288x128, .f32⟩
  | .hbm, ⟨5, _⟩ => ⟨S4x4096x4096, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S8192x128, .f32⟩
  | .local _ .vmem, ⟨4, _⟩ => ⟨S8192x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S524288x128 : S4x4096x4096.ShapeCasts S524288x128
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S524288x128_S4x4096x4096 : S524288x128.ShapeCasts S4x4096x4096
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S128x128 : Shape := ⟨2, ![128, 128]⟩
abbrev S4x4096x32x128 : Shape := ⟨4, ![4, 4096, 32, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S4x4096x32x128, .f32⟩
  | .hbm, ⟨3, _⟩ => ⟨S4x4096x32x128, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x4096x4096_S4x4096x32x128 : S4x4096x4096.ShapeCasts S4x4096x32x128
  shapeCasts_S4x4096x32x128_S4x4096x4096 : S4x4096x32x128.ShapeCasts S4x4096x4096
  dot_S4x4096x32x128_S128x128_S4x4096x32x128_3_0_012_1_n_n_wf : DotDims.WF S4x4096x32x128 S128x128 S4x4096x32x128 [3] [0] [0, 1, 2] [1] [] []

variable [Facts₀]

def dot_S4x4096x32x128_S128x128_S4x4096x32x128_3_0_012_1_n_n : DotDims S4x4096x32x128 S128x128 S4x4096x32x128 where
  lhsContracting := [3]
  rhsContracting := [0]
  lhsNonContracting := [0, 1, 2]
  rhsNonContracting := [1]
  lhsBatch := []
  rhsBatch := []
  wf := dot_S4x4096x32x128_S128x128_S4x4096x32x128_3_0_012_1_n_n_wf

class Facts : Prop extends Facts₀ where

variable [Facts]
-- ==== Proof.BlockProduct.lean ====
/-
  The block-diagonal transform as a function of the argument arrays, and the one piece of index arithmetic the
  certificate needs.

  The input `x` has shape [4, 4096, 4096]; its last axis is cut into 32 groups of 128 consecutive entries, and
  every group, read as a row vector, is multiplied on the right by the 128 × 128 matrix `H`:
    out[b, s, 128·g + c] = ∑ₖ x[b, s, 128·g + k] · H[k, c].
  One program computes this after flattening `x` row-major into 524288 rows of 128 entries (row r holds the group
  with flat position 128·r … 128·r + 127), multiplying every row by `H`, and un-flattening; the other keeps the
  four axes [4, 4096, 32, 128] apart.  Both are the function `blockProduct` below: a row-major reshape keeps the flat
  position, and 128 divides 4096, so the flat position of (b, s, e) is 128·(its row) + (e mod 128) with the row's
  entries exactly the group of `e`.  Only sums and products of the same terms in the same order occur, so nothing
  here needs the entries to be finite.
-/
import Idealize.ShloMosaic.Lib.ValueIdx
import Idealize.ShloMosaic.Lib.Pipeline.Value
import Idealize.ShloMosaic.PureOps.Ideal.Laws

noncomputable section

namespace Cert.BlockProduct

open Idealize.ShloMosaic Idealize.ShloMosaic.ValueIdx

/-- The three-axis array, the matrix, and the array flattened to rows of one group each. -/
abbrev Sx : Shape := ⟨3, ![4, 4096, 4096]⟩
abbrev Sh : Shape := ⟨2, ![128, 128]⟩
abbrev Srows : Shape := ⟨2, ![524288, 128]⟩

/-- Every row of a [524288, 128] array times the matrix: entry (r, c) is `∑ₖ X[r, k] · H[k, c]`. -/
def rowsTimes (X : Srows.Idx → EReal) (H : Sh.Idx → EReal) : Srows.Idx → EReal :=
  fun j => ∑ k : Fin 128, X (ix2 (j 0) k) * H (ix2 k (j 1))

/-- The position, on the last axis, of entry `k` of the group that holds position `e`. -/
abbrev inGroup (e : Fin 4096) (k : Fin 128) : Fin 4096 :=
  ⟨e.val / 128 * 128 + k.val, by have := e.isLt; have := k.isLt; omega⟩

/-- The column of `H` that position `e` of the last axis meets: its place inside its group. -/
abbrev column (e : Fin 4096) : Fin 128 := ⟨e.val % 128, Nat.mod_lt _ (by decide)⟩

/-- The transform on the three-axis array: every group of 128 consecutive entries of the last axis times the matrix. -/
def blockProduct (x : Sx.Idx → EReal) (H : Sh.Idx → EReal) : Sx.Idx → EReal :=
  fun i => ∑ k : Fin 128, x (ix3 (i 0) (i 1) (inGroup (i 2) k)) * H (ix2 k (column (i 2)))

/-- Flatten to rows, multiply every row by the matrix, un-flatten: the block transform.  Index (b, s, e) has flat
    position n = (4096·b + s)·4096 + e; it lands in row n / 128 at column n mod 128 = e mod 128, and entry k of that
    row has flat position 128·(n / 128) + k = (4096·b + s)·4096 + (128·(e / 128) + k). -/
theorem unflatten_rowsTimes_flatten (x : Sx.Idx → EReal) (H : Sh.Idx → EReal)
    (hflat : Sx.ShapeCasts Srows) (hback : Srows.ShapeCasts Sx) :
    shapeCast Sx (rowsTimes (shapeCast Srows x hflat) H) hback = blockProduct x H := by
  funext i
  have h0 : (i 0).val < 4 := (i 0).isLt
  have h1 : (i 1).val < 4096 := (i 1).isLt
  have h2 : (i 2).val < 4096 := (i 2).isLt
  -- the row and the column the index lands in
  let r : Fin 524288 := ⟨(((i 0).val * 4096 + (i 1).val) * 4096 + (i 2).val) / 128, by omega⟩
  have hpos : (Srows.rowMajor (ix2 r (column (i 2)))).val = (Sx.rowMajor i).val := by
    rw [Shape.rowMajor_val_two, Shape.rowMajor_val_three]
    show (((i 0).val * 4096 + (i 1).val) * 4096 + (i 2).val) / 128 * 128 + (i 2).val % 128
      = ((i 0).val * 4096 + (i 1).val) * 4096 + (i 2).val
    omega
  rw [shapeCast_apply (rowsTimes (shapeCast Srows x hflat) H) hback i (ix2 r (column (i 2))) hpos]
  unfold rowsTimes blockProduct
  refine Finset.sum_congr rfl fun k _ => ?_
  have hk : k.val < 128 := k.isLt
  have hx : (Sx.rowMajor (ix3 (i 0) (i 1) (inGroup (i 2) k))).val = (Srows.rowMajor (ix2 r k)).val := by
    rw [Shape.rowMajor_val_two, Shape.rowMajor_val_three]
    show ((i 0).val * 4096 + (i 1).val) * 4096 + ((i 2).val / 128 * 128 + k.val)
      = (((i 0).val * 4096 + (i 1).val) * 4096 + (i 2).val) / 128 * 128 + k.val
    omega
  rw [shapeCast_apply x hflat (ix2 r k) (ix3 (i 0) (i 1) (inGroup (i 2) k)) hx]

end Cert.BlockProduct

end
-- ==== Proof.KernelPayload.lean ====
/-
  What the kernel body stores, read at an index.  The body loads a block of 8192 rows and the whole 128 × 128 matrix,
  narrows the rows' format (the identity on extended reals), and multiplies into a zero accumulator: entry (p, q) of the
  stored block is `∑ₖ rows[p, k] · matrix[k, q]`.
-/
import proofs.«410206_j8959301779559_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! The product's operand indices, axis by axis: the left operand is read at (row of the output, contraction index),
    the right one at (contraction index, column of the output). -/

theorem lhs_axis0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_axis1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_axis0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_axis1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The block product into a zero accumulator, at an output index: the sum over the 128 contraction positions. -/
theorem product_apply (a : FVec Ideal S8192x128 .bf16) (b : FVec Ideal S128x128 .bf16) (i : S8192x128.Idx) :
    matmul dot_S8192x128_S128x128_S8192x128_1_0_0_1_n_n none a b (constant S8192x128 .f32 0x00000000#32) i
      = ∑ k : Fin 128, a (ix2 (i 0) k) * b (ix2 k (i 1)) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx i ((contrEquiv1 dot_S8192x128_S128x128_S8192x128_1_0_0_1_n_n 128 rfl rfl).symm k) = ix2 (i 0) k := funext fun d => Fin.ext (by
    match d with
    | ⟨0, _⟩ => exact lhs_axis0 _ _
    | ⟨1, _⟩ => exact (lhs_axis1 _ _).trans hk)
  have er : dot_S8192x128_S128x128_S8192x128_1_0_0_1_n_n.rhsIdx i ((contrEquiv1 dot_S8192x128_S128x128_S8192x128_1_0_0_1_n_n 128 rfl rfl).symm k) = ix2 k (i 1) := funext fun d => Fin.ext (by
    match d with
    | ⟨0, _⟩ => exact (rhs_axis0 _ _).trans hk
    | ⟨1, _⟩ => exact rhs_axis1 _ _)
  rw [el, er]
  rfl

/-- The stored value at (p, q): the loaded rows against the loaded matrix.  The shape casts are between equal shapes and
    the narrowing of the rows' format changes no extended real. -/
theorem stored_apply (rows : Vec Ideal S8192x128 .f32) (mat : Vec Ideal S128x128 .bf16) (i : S8192x128.Idx) :
    k0_pay1 (F := Ideal) rows mat i = ∑ k : Fin 128, rows (ix2 (i 0) k) * mat (ix2 k (i 1)) := by
  unfold k0_pay1
  simp only [shapeCast_self]
  exact product_apply _ _ i

end Cert.KernelIdeal.Payload

end
-- ==== Proof.KernelValue.lean ====
/-
  The kernel's result as a function of its arguments.

  Before the region the program flattens `x` row-major into 524288 rows of 128 and narrows the matrix's format (the
  identity on extended reals).  The region runs 64 grid points; point `t` fetches rows 8192·t … 8192·t + 8191 and the
  whole matrix, and writes back those rows times the matrix.  The 64 blocks tile the 524288 rows, so the region's output
  array is every row times the matrix; the program's last line un-flattens it.  By the arithmetic of the flat position
  (`Cert.BlockProduct.unflatten_rowsTimes_flatten`) that is the block transform of `x`.
-/
import proofs.«410206_j8959301779559_3_alg».proof.Proof.Gen.KernelIdeal.Frame
import proofs.«410206_j8959301779559_3_alg».proof.Proof.BlockProduct
import proofs.«410206_j8959301779559_3_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx Cert.BlockProduct

variable (m : (ℓ : Loc nD τ sig) → Buf (Elt Ideal) ℓ) (ρ : Dev nD → PrngReg)

theorem offsets_zero : (![0, 0] : Fin 2 → Nat) = fun _ => 0 := funext fun a => by fin_cases a <;> rfl

/-- The block indices over the grid: the rows' window and the output's are at block `t` of the row axis, the matrix's
    window stays at its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The flattened array and the narrowed matrix, as the region finds them. -/
abbrev rowsArr (c : Dev nD) : Vec Ideal S524288x128 .f32 := V m c main_v0
abbrev matArr (c : Dev nD) : Vec Ideal S128x128 .bf16 := V m c main_v1

/-- The rows' block at point `t`, at (p, k), is row 8192·t + p of the flattened array at k. -/
theorem rowsBlock_apply (c : Dev nD) (t : Fin cfg0.N) (y : S8192x128.Idx) (i : S524288x128.Idx)
    (h0 : (i 0).val = t.val * 8192 + (y 0).val) (h1 : (i 1).val = (y 1).val) :
    (iblk m c 0 t : Vec Ideal S8192x128 .f32) y = rowsArr m c i := by
  obtain ⟨e0, e1, -, -, -, -⟩ := block_indices t
  unfold iblk
  rw [View.read_apply]
  show V m c main_v0 _ = V m c main_v0 _
  congr 1
  funext a
  apply Fin.ext
  match a with
  | ⟨0, _⟩ => show win0_0.index t (0 : Fin 2) * 8192 + 1 * (y 0).val = (i 0).val; omega
  | ⟨1, _⟩ => show win0_0.index t (1 : Fin 2) * 128 + 1 * (y 1).val = (i 1).val; omega

/-- The matrix's block at every point is the whole matrix. -/
theorem matBlock_apply (c : Dev nD) (t : Fin cfg0.N) (y : S128x128.Idx) :
    (iblk m c 1 t : Vec Ideal S128x128 .bf16) y = matArr m c y := by
  obtain ⟨-, -, e2, e3, -, -⟩ := block_indices t
  unfold iblk
  rw [View.read_apply]
  show V m c main_v1 _ = V m c main_v1 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- WHAT POINT `t` WRITES BACK is block `t` of "every row times the matrix". -/
theorem flushed_eq (c : Dev nD) (t : Fin cfg0.N) :
    (dats m 0 c).flushed 2 t = ((cfg0.win 2).blk t).view.read (Elt Ideal) (rowsTimes (rowsArr m c) (matArr m c)) := by
  show (cfg0.win 2).cut (grid0.coords t) ((dats m 0 c).after 2 t) = _
  rw [after0_2]
  unfold out0_2
  rw [View.canon_unit_zero offsets_zero]
  simp only [View.ld_unit_zero (S := S8192x128) offsets_zero, View.ld_unit_zero (S := S128x128) offsets_zero]
  obtain ⟨-, -, -, -, e4, e5⟩ := block_indices t
  funext j
  show k0_pay1 (F := Ideal) (iblk m c 0 t) (iblk m c 1 t) j
    = rowsTimes (rowsArr m c) (matArr m c) (((cfg0.win 2).blk t).view.emb j)
  refine (Payload.stored_apply (iblk m c 0 t) (iblk m c 1 t) j).trans ?_
  unfold rowsTimes
  refine Finset.sum_congr rfl fun k _ => ?_
  have hr : (iblk m c 0 t : Vec Ideal S8192x128 .f32) (ix2 (j 0) k)
      = rowsArr m c (ix2 ((((cfg0.win 2).blk t).view.emb j) 0) k) :=
    rowsBlock_apply m c t (ix2 (j 0) k) _
      (by show win0_2.index t (0 : Fin 2) * 8192 + 1 * (j 0).val = t.val * 8192 + (j 0).val; omega) rfl
  have hc : (iblk m c 1 t : Vec Ideal S128x128 .bf16) (ix2 k (j 1))
      = matArr m c (ix2 k ((((cfg0.win 2).blk t).view.emb j) 1)) := by
    rw [matBlock_apply m c t (ix2 k (j 1))]
    congr 1
    funext a
    apply Fin.ext
    match a with
    | ⟨0, _⟩ => rfl
    | ⟨1, _⟩ => show (j 1).val = win0_2.index t (1 : Fin 2) * 128 + 1 * (j 1).val; omega
  rw [hr, hc]

/-- An index of the output array is in point `t`'s block iff each coordinate is in the block's range. -/
theorem mem_block (t : Fin cfg0.N) (i : S524288x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v2).slice (win0_2.rect t)).set ↔ _
  rw [View.set_slice_whole, Rect.mem_set_unit]
  exact Iff.rfl

/-- Row r lies in the block of point r / 8192: the 64 blocks tile the rows. -/
theorem covered (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  have hN : cfg0.N = 64 := N_0
  let t : Fin cfg0.N := ⟨(i 0).val / 8192, by rw [hN]; omega⟩
  have ht : t.val = (i 0).val / 8192 := rfl
  obtain ⟨-, -, -, -, e4, e5⟩ := block_indices t
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- THE REGION'S OUTPUT ARRAY after the run: every row of the flattened array times the matrix. -/
theorem region_out (c : Dev nD) : (dats m 0 c).arrAt 2 cfg0.N = rowsTimes (rowsArr m c) (matArr m c) :=
  (dats m 0 c).arrAt_eq_of_cover 2 (rowsTimes (rowsArr m c) (matArr m c)) (fun t _ => flushed_eq m c t) (covered)

/-- The host lines before the region: the flattening, and the narrowing of the matrix's format. -/
theorem rowsArr_eq (c : Dev nD) :
    rowsArr m c = shapeCast S524288x128 (m ((c : Thread nD τ).loc main_arg0)) shapeCasts_S4x4096x4096_S524288x128 := by
  show StableHlo.after hostOps0 (fun b => m (c, b)) (Proc.devRef .tc main_v0) = _
  after_results
  rfl
theorem matArr_eq (c : Dev nD) : matArr m c = m ((c : Thread nD τ).loc main_arg1) := by
  show StableHlo.after hostOps0 (fun b => m (c, b)) (Proc.devRef .tc main_v1) = _
  after_results
  rfl

/-- The host line after the region un-flattens the region's output: the program's result is the block transform. -/
theorem result_eq (c : Dev nD) :
    Pipeline.afterTail₀ cfgs (dats m) 0 (V0 m) [hostOps1] c main_v3
      = blockProduct (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (region_out m c), rowsArr_eq, matArr_eq]
  exact unflatten_rowsTimes_flatten _ _ _ _

/-- The run, read: the result at the block transform of the arguments, the arguments unchanged. -/
theorem run : θ_run defs (onTc (τ := τ) (main (F := Ideal))) ⟨m, fun _ => 0, ρ⟩ fun r => ∀ c : Dev nD,
      r.2.mem ((c.tc : Thread nD τ).loc main_v3) = blockProduct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Rows

end
-- ==== Proof.RefValue.lean ====
/-
  The reference's result as a function of its arguments.  The reference views `x` as [4, 4096, 32, 128] (the last axis
  cut into 32 groups of 128), contracts the group's axis against the matrix's first axis, and views the result as
  [4, 4096, 4096] again.  Read at (b, s, e): the second view sends it to group e / 128, place e mod 128; the product sums,
  over k, the first view's entry (b, s, e / 128, k) — which is `x` at (b, s, 128·(e / 128) + k) — times H[k, e mod 128].
  That is the block transform.
-/
import proofs.«410206_j8959301779559_3_alg».proof.Proof.Gen.ReferenceIdeal.Read
import proofs.«410206_j8959301779559_3_alg».proof.Proof.BlockProduct
import Idealize.ShloMosaic.Lib.ValueIdx
import Idealize.ShloMosaic.Lib.Pipeline.Value
import Idealize.ShloMosaic.PureOps.Ideal.Laws

noncomputable section

namespace Cert.ReferenceIdeal.Blocks

open Cert.ReferenceIdeal Cert.ReferenceIdeal.Gen Cert.ReferenceIdeal.Read Idealize.ShloMosaic Idealize.ShloMosaic.ValueIdx
open Cert.BlockProduct

/-- The reference's last stage is the block transform of the arguments. -/
theorem result_eq (x : (⟨S4x4096x4096, .f32⟩ : BufTy).Contents (Elt Ideal)) (H : (⟨S128x128, .f32⟩ : BufTy).Contents (Elt Ideal)) :
    val_main_v2 (F := Ideal) x H = blockProduct x H := by
  funext i
  have h0 : (i 0).val < 4 := (i 0).isLt
  have h1 : (i 1).val < 4096 := (i 1).isLt
  have h2 : (i 2).val < 4096 := (i 2).isLt
  rw [val_main_v2_apply, val_main_v1_apply]
  unfold blockProduct
  refine Finset.sum_congr rfl fun k _ => ?_
  have hk : k.val < 128 := k.isLt
  rw [val_main_v0_apply]
  -- the entry of `x` the first view hands to the product, and the column of the matrix
  have ex : idx_main_v0 (lidx_main_v1 (idx_main_v2 i) k) = ix3 (i 0) (i 1) (inGroup (i 2) k) := funext fun a => Fin.ext (by
    match a with
    | ⟨0, _⟩ => show (((((((i 0).val * 4096 + (i 1).val) * 4096 + (i 2).val) / 16777216) * 4096 + (((i 0).val * 4096 + (i 1).val) * 4096 + (i 2).val) / 4096 % 4096) * 32 + (((i 0).val * 4096 + (i 1).val) * 4096 + (i 2).val) / 128 % 32) * 128 + k.val) / 16777216 = (i 0).val; omega
    | ⟨1, _⟩ => show (((((((i 0).val * 4096 + (i 1).val) * 4096 + (i 2).val) / 16777216) * 4096 + (((i 0).val * 4096 + (i 1).val) * 4096 + (i 2).val) / 4096 % 4096) * 32 + (((i 0).val * 4096 + (i 1).val) * 4096 + (i 2).val) / 128 % 32) * 128 + k.val) / 4096 % 4096 = (i 1).val; omega
    | ⟨2, _⟩ => show (((((((i 0).val * 4096 + (i 1).val) * 4096 + (i 2).val) / 16777216) * 4096 + (((i 0).val * 4096 + (i 1).val) * 4096 + (i 2).val) / 4096 % 4096) * 32 + (((i 0).val * 4096 + (i 1).val) * 4096 + (i 2).val) / 128 % 32) * 128 + k.val) % 4096 = (i 2).val / 128 * 128 + k.val; omega)
  have eh : ridx_main_v1 (idx_main_v2 i) k = ix2 k (column (i 2)) := funext fun a => Fin.ext (by
    match a with
    | ⟨0, _⟩ => rfl
    | ⟨1, _⟩ => show (((i 0).val * 4096 + (i 1).val) * 4096 + (i 2).val) % 128 = (i 2).val % 128; omega)
  rw [ex, eh]
  rfl

end Cert.ReferenceIdeal.Blocks

end
-- ==== Proof.lean ====
/-
  The certificate: a block-diagonal transform of the last axis of a [4, 4096, 4096] array — every group of 128
  consecutive entries, as a row vector, times a 128 × 128 matrix — computed by a kernel that flattens the array to
  524288 rows of 128 and multiplies 8192 rows per grid point, against a reference that contracts a [4, 4096, 32, 128]
  view with the matrix.  On the extended reals both are
    out[b, s, e] = ∑ₖ x[b, s, 128·(e / 128) + k] · H[k, e mod 128]
  (`Cert.BlockProduct.blockProduct`), the same products summed over the same index, so the precondition is never opened.
  The frames are the generated ones (the reference's is its generated run with the result dropped); the idealization
  rewrote nothing, so `preserves` is trivial.
-/
import proofs.«410206_j8959301779559_3_alg».proof.Defs
import proofs.«410206_j8959301779559_3_alg».proof.Proof.Gen.Kernel
import proofs.«410206_j8959301779559_3_alg».proof.Proof.Gen.Kernel.Skeleton
import proofs.«410206_j8959301779559_3_alg».proof.Proof.Gen.Kernel.Launch
import proofs.«410206_j8959301779559_3_alg».proof.Proof.Gen.Kernel.Points
import proofs.«410206_j8959301779559_3_alg».proof.Proof.Gen.Kernel.Frame
import proofs.«410206_j8959301779559_3_alg».proof.Proof.Gen.KernelIdeal
import proofs.«410206_j8959301779559_3_alg».proof.Proof.Gen.KernelIdeal.Skeleton
import proofs.«410206_j8959301779559_3_alg».proof.Proof.Gen.KernelIdeal.Launch
import proofs.«410206_j8959301779559_3_alg».proof.Proof.Gen.KernelIdeal.Points
import proofs.«410206_j8959301779559_3_alg».proof.Proof.Gen.KernelIdeal.Frame
import proofs.«410206_j8959301779559_3_alg».proof.Proof.Gen.ReferenceIdeal
import proofs.«410206_j8959301779559_3_alg».proof.Proof.Gen.ReferenceIdeal.Run
import proofs.«410206_j8959301779559_3_alg».proof.Proof.Gen.ReferenceIdeal.Read
import proofs.«410206_j8959301779559_3_alg».proof.Proof.Gen.Pre_finite_inputs
import proofs.«410206_j8959301779559_3_alg».proof.Proof.BlockProduct
import proofs.«410206_j8959301779559_3_alg».proof.Proof.KernelPayload
import proofs.«410206_j8959301779559_3_alg».proof.Proof.KernelValue
import proofs.«410206_j8959301779559_3_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel; its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the block transform of the arguments. -/
theorem algebraic : Cert.algebraic_KernelIdeal_ReferenceIdeal := by
  intro m ρ m' ρ' _ hagree
  refine ⟨fun c => Cert.BlockProduct.blockProduct
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Blocks.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
